-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S2048x2048 : Shape := ⟨2, ![2048, 2048]⟩
abbrev S_ : Shape := ⟨0, ![]⟩

class Facts : Prop where

variable [Facts]

def fn {F : FTy → Type} [FloatOps F] (main_arg0 : IVec S2048x2048 32) : IVec S_ 1 :=
  let main_c : IVec S_ 1 := constantI S_ 1 1#1
  main_c
-- ==== Kernel.lean ====
abbrev S2048x2048 : Shape := ⟨2, ![2048, 2048]⟩
abbrev S2048x32x2048 : Shape := ⟨3, ![2048, 32, 2048]⟩
abbrev S32x2048 : Shape := ⟨2, ![32, 2048]⟩
abbrev S32x32x2048 : Shape := ⟨3, ![32, 32, 2048]⟩
abbrev S32x16x2048 : Shape := ⟨3, ![32, 16, 2048]⟩
abbrev S32x1x2048 : Shape := ⟨3, ![32, 1, 2048]⟩

abbrev nBuf : Space → Nat
  | .hbm => 2
  | .vmem => 4
  | .smem => 0
  | _ => 0

abbrev bufTy : (tb : Table) → Fin (tcTables nBuf tb) → BufTy
  | .hbm, ⟨0, _⟩ => ⟨S2048x2048, .i32⟩
  | .hbm, ⟨1, _⟩ => ⟨S2048x32x2048, .f32⟩
  | .local _ .vmem, ⟨0, _⟩ => ⟨S32x2048, .i32⟩
  | .local _ .vmem, ⟨1, _⟩ => ⟨S32x2048, .i32⟩
  | .local _ .vmem, ⟨2, _⟩ => ⟨S32x32x2048, .f32⟩
  | .local _ .vmem, ⟨3, _⟩ => ⟨S32x32x2048, .f32⟩
  | _, _ => ⟨S2048x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c2_i32 : BitVec 32 := 2#32
  let v2 : BitVec 32 := Scalar.addi c0_i32 c2_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg3 : BitVec 32 := Scf.iv c0_i32 c1_i32 k0_t1
  let c16_i32 : BitVec 32 := 16#32
  let v3 : BitVec 32 := Scalar.muli arg3 c16_i32
  v3
def k0_mult2 (k0_t1 : Fin k0_t1_loop.trips) : BitVec 32 :=
  let c0_i32 : BitVec 32 := 0#32
  let c1_i32 : BitVec 32 := 1#32
  let arg3 : BitVec 32 := Scf.iv c0_i32 c1_i32 k0_t1
  let c16_i32 : BitVec 32 := 16#32
  let v3 : BitVec 32 := Scalar.muli arg3 c16_i32
  let v4 : BitVec 32 := v3
  v4
def k0_off1 (k0_t1 : Fin k0_t1_loop.trips) : Fin 3 → Nat :=
  let c0_3 : Index := 0#32
  let c0_i32 : BitVec 32 := 0#32
  let c1_i32 : BitVec 32 := 1#32
  let arg3 : BitVec 32 := Scf.iv c0_i32 c1_i32 k0_t1
  let c16_i32 : BitVec 32 := 16#32
  let v3 : BitVec 32 := Scalar.muli arg3 c16_i32
  let v4 : BitVec 32 := v3
  let v14 : BitVec 32 := v4
  let v15 : Index := Scalar.indexCast v14
  let c0_4 : Index := 0#32
  ![0, v15.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S32x2048_S32x2048_0_0 : ∀ a, (![0, 0] : Fin 2 → Nat) a + S32x2048.size a ≤ S32x2048.size a
  h_S32x2048 : 0 < S32x2048.numel
  iota_S32x16x2048_d1_w32 : S32x16x2048.Iotas .tc 32 [1]
  shapeCasts_S32x2048_S32x1x2048 : S32x2048.ShapeCasts S32x1x2048
  shapeCasts_S32x1x2048_S32x1x2048 : S32x1x2048.ShapeCasts S32x1x2048
  broadcasts_S32x1x2048_S32x16x2048 : S32x1x2048.Broadcasts S32x16x2048
  h_S32x16x2048 : 0 < S32x16x2048.numel
  hrank0 : 0 < grid0.rank
  k0_t1_ok : k0_t1_loop.OK
  k0_mult1_dvd : ∀ k0_t1 : Fin k0_t1_loop.trips, 16 ∣ (k0_mult1 k0_t1).toNat
  k0_mult2_dvd : ∀ k0_t1 : Fin k0_t1_loop.trips, 8 ∣ (k0_mult2 k0_t1).toNat
  k0_off1_inb : ∀ k0_t1 : Fin k0_t1_loop.trips, ∀ a, (k0_off1 k0_t1) a + S32x16x2048.size a ≤ S32x32x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x2048.size a ≤ S2048x2048.size a
  hwx0_0 : ∀ i : grid0.Coords, EltTy.bits .i32 = 32 ∨ (Rect.block (s := S2048x2048) S32x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x32x2048.size a ≤ S2048x32x2048.size a
  hwx0_1 : ∀ i : grid0.Coords, EltTy.bits .f32 = 32 ∨ (Rect.block (s := S2048x32x2048) S32x32x2048.size (cc0_transform_1 i) (hinb0_1 i)).WholeWords (EltTy.packing .f32)

variable [Facts₀]

abbrev win0_0 : Pipeline.Window sig grid0 :=
  Pipeline.Window.ofSpec (Memref.whole main_arg0) S32x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x32x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x2048 : Shape := ⟨2, ![2048, 2048]⟩
abbrev S32 : Shape := ⟨1, ![32]⟩
abbrev S2048x1x2048 : Shape := ⟨3, ![2048, 1, 2048]⟩
abbrev S1x32x1 : Shape := ⟨3, ![1, 32, 1]⟩
abbrev S2048x32x2048 : Shape := ⟨3, ![2048, 32, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .i32⟩
  | .hbm, ⟨1, _⟩ => ⟨S32, .i32⟩
  | .hbm, ⟨2, _⟩ => ⟨S2048x1x2048, .i32⟩
  | .hbm, ⟨3, _⟩ => ⟨S1x32x1, .i32⟩
  | .hbm, ⟨4, _⟩ => ⟨S2048x32x2048, .i32⟩
  | .hbm, ⟨5, _⟩ => ⟨S2048x32x2048, .i32⟩
  | .hbm, ⟨6, _⟩ => ⟨S2048x32x2048, .i32⟩
  | .hbm, ⟨7, _⟩ => ⟨S_, .i32⟩
  | .hbm, ⟨8, _⟩ => ⟨S2048x32x2048, .i32⟩
  | .hbm, ⟨9, _⟩ => ⟨S2048x32x2048, .i32⟩
  | .hbm, ⟨10, _⟩ => ⟨S2048x32x2048, .f32⟩
  | _, _ => ⟨S2048x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]

class Facts₀ : Prop where
  bcast_S2048x2048_S2048x1x2048_0_2 : S2048x2048.BroadcastsInDim S2048x1x2048 (![0, 2] : Fin 2 → Fin S2048x1x2048.rank)
  bcast_S32_S1x32x1_1 : S32.BroadcastsInDim S1x32x1 (![1] : Fin 1 → Fin S1x32x1.rank)
  bcast_S2048x1x2048_S2048x32x2048_0_1_2 : S2048x1x2048.BroadcastsInDim S2048x32x2048 (![0, 1, 2] : Fin 3 → Fin S2048x32x2048.rank)
  bcast_S1x32x1_S2048x32x2048_0_1_2 : S1x32x1.BroadcastsInDim S2048x32x2048 (![0, 1, 2] : Fin 3 → Fin S2048x32x2048.rank)
  bcast_S_S2048x32x2048 : S_.BroadcastsInDim S2048x32x2048 (![] : Fin 0 → Fin S2048x32x2048.rank)

variable [Facts₀]

class Facts : Prop extends Facts₀ where

variable [Facts]
-- ==== Proof.BitPlanes.lean ====
/-
  Unpacking 32-bit words into bit planes: the function both programs compute, and the one law of shifts that joins them.

  For a matrix `X` of 32-bit words, the result at `(b, r, c)` is bit `r` of `X (b, c)`, written as the number
  `0` or `1`: `(X (b, c) >> r) & 1`, the shift arithmetic (sign-filling), read as a signed integer. A plane index `r`
  below `32` splits as `r = a + j`; an arithmetic shift by `a` followed by one by `j` is the arithmetic shift by
  `a + j` as long as `a + j` stays below the width (every shift below the width is the machine-independent one).
-/
import Idealize.ShloMosaic.PureOps.Ideal
import Idealize.ShloMosaic.Lib.ValueIdx

noncomputable section

namespace Cert.BitPlanes

open Idealize.ShloMosaic Idealize.ShloMosaic.ValueIdx

/-- An arithmetic right shift by `a` and then by `j` is the arithmetic right shift by `a + j`, when `a + j` is below the
    width `32` — on whichever units the three shifts run: below the width all units shift alike. -/
theorem shrsi_shrsi (u u' u'' : ArithUnit) (w : BitVec 32) (a j : Nat) (h : a + j < 32) :
    IntOp.shrsi u (IntOp.shrsi u' w (BitVec.ofNat 32 a)) (BitVec.ofNat 32 j)
      = IntOp.shrsi u'' w (BitVec.ofNat 32 (a + j)) := by
  have ha : (BitVec.ofNat 32 a).toNat = a := by rw [BitVec.toNat_ofNat]; exact Nat.mod_eq_of_lt (by omega)
  have hj : (BitVec.ofNat 32 j).toNat = j := by rw [BitVec.toNat_ofNat]; exact Nat.mod_eq_of_lt (by omega)
  have haj : (BitVec.ofNat 32 (a + j)).toNat = a + j := by rw [BitVec.toNat_ofNat]; exact Nat.mod_eq_of_lt (by omega)
  unfold IntOp.shrsi
  rw [if_pos (by omega), if_pos (by omega), if_pos (by omega)]
  simp only [BitVec.sshiftRight', ha, hj, haj]
  exact BitVec.sshiftRight_add.symm

variable {F : FTy → Type} [FloatOps F]

/-- Bit `r` of the word `w` as a float: `(w >> r) & 1`, converted. -/
def bitOf (w : BitVec 32) (r : Nat) : F .f32 :=
  FloatOps.sitofp .f32 (IntOp.andi (IntOp.shrsi .host w (BitVec.ofNat 32 r)) 1#32)

/-- The bit planes of a 2048 × 2048 matrix of words: entry `(b, r, c)` is bit `r` of `X (b, c)`. -/
def planes (X : (⟨2, ![2048, 2048]⟩ : Shape).Idx → BitVec 32) : (⟨3, ![2048, 32, 2048]⟩ : Shape).Idx → F .f32 :=
  fun i => bitOf (X (ix2 (i 0) (i 2))) (i 1).val

/-- The bit planes of a block of 32 rows: the same function of the block's words. -/
def blockPlanes (x : (⟨2, ![32, 2048]⟩ : Shape).Idx → BitVec 32) : (⟨3, ![32, 32, 2048]⟩ : Shape).Idx → F .f32 :=
  fun y => bitOf (x (ix2 (y 0) (y 2))) (y 1).val

/-- Planes `a ≤ r < a + 16` of a block, computed in two steps — every word shifted by `a` first, then plane `a + j` read
    as bit `j` of the shifted word — are the planes of the block itself. -/
theorem bitOf_split (u u' : ArithUnit) (w : BitVec 32) (a j : Nat) (h : a + j < 32) :
    (FloatOps.sitofp .f32 (IntOp.andi (IntOp.shrsi u (IntOp.shrsi u' w (BitVec.ofNat 32 a)) (BitVec.ofNat 32 j)) 1#32) : F .f32)
      = bitOf w (a + j) := by
  unfold bitOf; rw [shrsi_shrsi u u' .host w a j h]

end Cert.BitPlanes

end
-- ==== Proof.LibMidUnitAxis.lean ====
/-
  A unit axis in the MIDDLE of a rank-3 shape, read at an index given by coordinates.

  A matrix `[a, b]` cast to `[a, 1, b]` keeps its row-major order, so the entry at `(i, u, j)` (with `u` the one coordinate of
  the unit axis) is the matrix's entry `(i, j)`; and an `[a, 1, b]` array broadcast along its unit axis to `[a, n, b]` reads, at
  `(i, r, j)`, its one entry `(i, 0, j)` whatever `r` is. Together: `x[:, None, :]` broadcast over `n` planes is `x (i, j)` at
  `(i, r, j)`. The library's `shapeCast_apply` and `broadcastTo_apply` do the work; here their coordinate obligations are
  discharged for indices written `ix2 …` / `ix3 …`, for any extents.
-/
import Idealize.ShloMosaic.Lib.ValueLayout

namespace Cert.MidUnitAxis

open Idealize.ShloMosaic Idealize.ShloMosaic.ValueIdx

variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array broadcast to `[a, n, b]` reads, at `(i, r, j)`, the operand at `(i, 0, j)`. -/
theorem broadcastTo_a1b_anb_apply {a n b : ℕ} (v : (⟨3, ![a, 1, b]⟩ : Shape).Idx → α)
    (h : (⟨3, ![a, 1, b]⟩ : Shape).Broadcasts ⟨3, ![a, n, b]⟩) (i : Fin a) (r : Fin n) (j : Fin b) :
    broadcastTo ⟨3, ![a, n, b]⟩ v h (ix3 i r j) = v (ix3 i (0 : Fin 1) j) := by
  refine broadcastTo_apply v h (ix3 i r j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

end Cert.MidUnitAxis
-- ==== Proof.KernelBlock.lean ====
/-
  What one grid point of the kernel leaves in its output block.

  The body loads its block `x` of 32 rows of words and runs two trips `k = 0, 1`. Trip `k` shifts every word by `16 k`,
  repeats the shifted row-block along a new middle axis of 16 planes, shifts plane `q` by `q` more, masks by `1`, converts,
  and stores the result at planes `16 k ≤ r < 16 k + 16` of the output block. By the law of shifts (`BitPlanes.bitOf_split`)
  the stored entry `(p, q, l)` is bit `16 k + q` of `x (p, l)`, which is the entry of the block's bit planes at the place
  the store puts it; the two stores tile the 32 planes, so the block ends as `BitPlanes.blockPlanes x`.
-/
import proofs.«403591_j26448408609453_3_alg».proof.Proof.Gen.KernelIdeal.Frame
import proofs.«403591_j26448408609453_3_alg».proof.Proof.BitPlanes
import proofs.«403591_j26448408609453_3_alg».proof.Proof.LibMidUnitAxis

set_option maxRecDepth 16384

noncomputable section

namespace Cert.KernelIdeal.Planes

open Cert.KernelIdeal Cert.KernelIdeal.Gen Idealize.ShloMosaic Idealize.ShloMosaic.TcCoe Idealize.SL.Sem
open Idealize.ShloMosaic.ValueIdx Cert.MidUnitAxis

variable {F : FTy → Type} [FloatOps F]

/-- The loop makes two trips. -/
theorem trips_eq : k0_t1_loop.trips = 2 := by decide

/-- Trip `k` first shifts by `16 k`. -/
theorem shift_eq : ∀ k : Fin k0_t1_loop.trips, Scalar.muli (Scf.iv 0#32 1#32 k) 16#32 = BitVec.ofNat 32 (16 * k.val) := by
  decide +kernel

/-- The plane counter at `(p, q, l)` is `q`. -/
theorem iota_apply (p : Fin 32) (q : Fin 16) (l : Fin 2048) :
    iota .tc S32x16x2048 32 [1] iota_S32x16x2048_d1_w32 (ix3 p q l) = BitVec.ofNat 32 q.val := by
  show BitVec.ofNat 32 (0 * 16 + q.val) = _
  rw [Nat.zero_mul, Nat.zero_add]

/-- What trip `k` stores, at `(p, q, l)`: bit `16 k + q` of the block's word `(p, l)`. -/
theorem pay_apply (x0 : Vec F S32x2048 .i32) (k : Fin k0_t1_loop.trips) (p : Fin 32) (q : Fin 16) (l : Fin 2048) :
    k0_pay1 x0 k (ix3 p q l) = Cert.BitPlanes.bitOf (x0 (ix2 p l)) (16 * k.val + q.val) := by
  have hk : k.val < 2 := Nat.lt_of_lt_of_le k.isLt (le_of_eq trips_eq)
  unfold k0_pay1
  show FloatOps.sitofp .f32 (IntOp.andi (IntOp.shrsi .vector
      (broadcastTo S32x16x2048 (shapeCast S32x1x2048 (shapeCast S32x1x2048
        (shrsi x0 (broadcast S32x2048 (Scalar.muli (Scf.iv 0#32 1#32 k) 16#32))) shapeCasts_S32x2048_S32x1x2048)
        shapeCasts_S32x1x2048_S32x1x2048) broadcasts_S32x1x2048_S32x16x2048 (ix3 p q l))
      (iota .tc S32x16x2048 32 [1] iota_S32x16x2048_d1_w32 (ix3 p q l))) 1#32) = _
  rw [broadcastTo_a1b_anb_apply, shapeCast_self, shapeCast_ab_a1b_apply, iota_apply, shift_eq]
  exact Cert.BitPlanes.bitOf_split .vector .vector (x0 (ix2 p l)) (16 * k.val) q.val (by omega)

/-- The place in the output block where trip `k` stores its entry `(p, q, l)`: row `p`, plane `16 k + q`, lane `l`. -/
theorem piece_agrees (x0 : Vec F S32x2048 .i32) (k : Fin k0_t1_loop.trips) (x : S32x16x2048.Idx) :
    k0_pay1 x0 k x = Cert.BitPlanes.blockPlanes x0 ((Rect.unit (s := S32x32x2048) (k0_off1 k) S32x16x2048.size (k0_off1_inb k)).emb x) := by
  obtain ⟨p, q, l, rfl⟩ : ∃ (p : Fin 32) (q : Fin 16) (l : Fin 2048), x = ix3 p q l := ⟨x 0, x 1, x 2, eq_ix3 x⟩
  rw [pay_apply]
  unfold Cert.BitPlanes.blockPlanes
  have hoff := k0_off1_eq k
  have hy : ∀ a, (((Rect.unit (s := S32x32x2048) (k0_off1 k) S32x16x2048.size (k0_off1_inb k)).emb (ix3 p q l)) a).val
      = k0_off1 k a + 1 * ((ix3 p q l : S32x16x2048.Idx) a).val := fun a => rfl
  generalize (Rect.unit (s := S32x32x2048) (k0_off1 k) S32x16x2048.size (k0_off1_inb k)).emb (ix3 p q l) = y at hy
  have e02 : (ix2 (y 0) (y 2) : S32x2048.Idx) = ix2 p l := funext fun a => Fin.ext (by
    match a with
    | ⟨0, _⟩ => show (y 0).val = p.val; rw [hy 0, hoff]; show 0 + 1 * p.val = p.val; omega
    | ⟨1, _⟩ => show (y 2).val = l.val; rw [hy 2, hoff]; show 0 + 1 * l.val = l.val; omega)
  have e1 : (y 1).val = 16 * k.val + q.val := by rw [hy 1, hoff]; show 16 * k.val + 1 * q.val = _; omega
  rw [e02, e1]

/-- Each trip stores ONE piece: its payload, at rows all, planes `16 k … 16 k + 15`, lanes all. -/
theorem trip_pieces (𝒱 : Variants) (c : Dev nD) (bd : Option 𝒱.V) (i : grid0.Coords) (arg1 : Memref sig .tc .vmem S32x2048 .i32) (harg1 : arg1.IsWhole)
    (arg2 : Memref sig .tc .vmem S32x32x2048 .f32) (harg2 : arg2.IsWhole) (v0 : Vec F S32x2048 .i32) (k : Fin k0_t1_loop.trips) :
    tripL_k0_t1 (F := F) 𝒱 c bd i arg1 harg1 arg2 harg2 v0 k
      = [⟨Rect.unit (s := S32x32x2048) (k0_off1 k) S32x16x2048.size (k0_off1_inb k), k0_pay1 v0 k⟩] := by
  unfold tripL_k0_t1 trip_k0_t1
  rfl

/-- The first and the second trip. -/
abbrev trip0 : Fin k0_t1_loop.trips := ⟨0, by rw [trips_eq]; omega⟩
abbrev trip1 : Fin k0_t1_loop.trips := ⟨1, by rw [trips_eq]; omega⟩

/-- The body's stores, last first: the second trip's piece, then the first's, with the loaded block the block itself. -/
theorem run_pieces (c : Dev nD) (i : grid0.Coords) (arg1 : Memref sig .tc .vmem S32x2048 .i32) (harg1 : arg1.IsWhole)
    (arg2 : Memref sig .tc .vmem S32x32x2048 .f32) (harg2 : arg2.IsWhole) (x0 : Vec F S32x2048 .i32) :
    (kernelRun0_A c i arg1 harg1 arg2 harg2 x0).1
      = [⟨Rect.unit (s := S32x32x2048) (k0_off1 trip1) S32x16x2048.size (k0_off1_inb trip1), k0_pay1 x0 trip1⟩,
         ⟨Rect.unit (s := S32x32x2048) (k0_off1 trip0) S32x16x2048.size (k0_off1_inb trip0), k0_pay1 x0 trip0⟩] := by
  have hz : (![0, 0] : Fin 2 → ℕ) = fun _ => 0 := by decide
  unfold kernelRun0_A
  dsimp only
  rw [View.readAt_eq_ld, harg1.read_unread, View.ld_unit_zero (S := S32x2048) hz]
  show pb_k0_t1 (F := F) Variants.none c none i arg1 harg1 arg2 harg2 x0 (trip1.val + 1) = _
  rw [pb_k0_t1_succ, trip_pieces]
  show _ ++ pb_k0_t1 (F := F) Variants.none c none i arg1 harg1 arg2 harg2 x0 (trip0.val + 1) = _
  rw [pb_k0_t1_succ, trip_pieces]
  rfl

/-- WHAT ONE POINT LEAVES in its output block: the bit planes of the block of words it loaded. Each of the two stored
    pieces is the restriction of that one function to the planes it covers (`piece_agrees`), and every plane `r` is covered:
    by the first trip's piece when `r < 16`, by the second's otherwise. -/
theorem out_block (c : Dev nD) (i : grid0.Coords) (arg1 : Memref sig .tc .vmem S32x2048 .i32) (harg1 : arg1.IsWhole)
    (arg2 : Memref sig .tc .vmem S32x32x2048 .f32) (harg2 : arg2.IsWhole) (x0 : Vec F S32x2048 .i32) :
    out0_A_1 c i arg1 harg1 arg2 harg2 x0 = Cert.BitPlanes.blockPlanes x0 := by
  unfold out0_A_1
  rw [View.read_writes_junk_eq_canon, run_pieces]
  funext y
  have hy0 : (y 0).val < 32 := (y 0).isLt
  have hy1 : (y 1).val < 32 := (y 1).isLt
  have hy2 : (y 2).val < 2048 := (y 2).isLt
  refine View.canon_apply_of_pieces (Val := Elt F) (S := S32x32x2048) (e := .f32)
    (Cert.BitPlanes.blockPlanes (F := F) x0 : S32x32x2048.Idx → Elt F .f32) _ ?_ y ?_
  · intro pc hpc x
    rcases List.mem_cons.mp hpc with rfl | hpc
    · exact piece_agrees x0 trip1 x
    rcases List.mem_cons.mp hpc with rfl | hpc
    · exact piece_agrees x0 trip0 x
    nomatch hpc
  · by_cases h : (y 1).val < 16
    · refine ⟨_, List.mem_cons_of_mem _ List.mem_cons_self, ?_⟩
      show y ∈ (Rect.unit (s := S32x32x2048) (k0_off1 trip0) S32x16x2048.size (k0_off1_inb trip0)).set
      rw [Rect.mem_set_unit, k0_off1_eq]
      intro a
      match a with
      | ⟨0, _⟩ => show 0 ≤ (y 0).val ∧ (y 0).val < 0 + 32; omega
      | ⟨1, _⟩ => show 16 * 0 ≤ (y 1).val ∧ (y 1).val < 16 * 0 + 16; omega
      | ⟨2, _⟩ => show 0 ≤ (y 2).val ∧ (y 2).val < 0 + 2048; omega
    · refine ⟨_, List.mem_cons_self, ?_⟩
      show y ∈ (Rect.unit (s := S32x32x2048) (k0_off1 trip1) S32x16x2048.size (k0_off1_inb trip1)).set
      rw [Rect.mem_set_unit, k0_off1_eq]
      intro a
      match a with
      | ⟨0, _⟩ => show 0 ≤ (y 0).val ∧ (y 0).val < 0 + 32; omega
      | ⟨1, _⟩ => show 16 * 1 ≤ (y 1).val ∧ (y 1).val < 16 * 1 + 16; omega
      | ⟨2, _⟩ => show 0 ≤ (y 2).val ∧ (y 2).val < 0 + 2048; omega

end Cert.KernelIdeal.Planes

end
-- ==== Proof.KernelArray.lean ====
/-
  From the blocks to the whole array.

  Grid point `t` stages rows `32 t … 32 t + 31` of the words and writes back rows `32 t … 32 t + 31` (all planes, all lanes) of
  the result. What it writes back is the bit planes of the block it staged (`out_block`), and the bit planes of a block of
  rows are that block of rows of the bit planes of the whole matrix: entry `(p, r, l)` of the block is bit `r` of word
  `(32 t + p, l)`. The 64 blocks tile the result, so the array ends as `BitPlanes.planes` of the argument.
-/
import proofs.«403591_j26448408609453_3_alg».proof.Proof.Gen.KernelIdeal.Value
import proofs.«403591_j26448408609453_3_alg».proof.Proof.KernelBlock

set_option maxRecDepth 16384

noncomputable section

namespace Cert.KernelIdeal.Planes

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

/-- The printed index maps, decided over the grid: at point `t` both windows sit at block row `t`, and at block `0` on
    the other axes. -/
theorem idx_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

/-- WHAT POINT `t` WRITES BACK is block `t` of the bit planes of the argument array. -/
theorem flushed_eq (c : Dev nD) (t : Fin cfg0.N) :
    (dats m 0 c).flushed 1 t = ((cfg0.win 1).blk t).view.read (Elt F) (Cert.BitPlanes.planes (F := F) (V m c main_arg0)) := by
  rw [Cert.KernelIdeal.Value.flushed1_A, out_block]
  obtain ⟨e0, e1, e2, e3, e4⟩ := idx_facts t
  funext j
  show Cert.BitPlanes.bitOf (V m c main_arg0 (((cfg0.win 0).blk t).view.emb (ix2 (j 0) (j 2) : S32x2048.Idx))) (j 1).val
    = Cert.BitPlanes.bitOf (V m c main_arg0 (ix2 ((((cfg0.win 1).blk t).view.emb j) 0) ((((cfg0.win 1).blk t).view.emb j) 2) : S2048x2048.Idx))
        ((((cfg0.win 1).blk t).view.emb j) 1).val
  have hw : ((cfg0.win 0).blk t).view.emb (ix2 (j 0) (j 2) : S32x2048.Idx)
      = (ix2 ((((cfg0.win 1).blk t).view.emb j) 0) ((((cfg0.win 1).blk t).view.emb j) 2) : S2048x2048.Idx) := by
    funext a; apply Fin.ext
    match a with
    | ⟨0, _⟩ => show win0_0.index t (0 : Fin 2) * 32 + 1 * (j 0).val = win0_1.index t (0 : Fin 3) * 32 + 1 * (j 0).val; omega
    | ⟨1, _⟩ => show win0_0.index t (1 : Fin 2) * 2048 + 1 * (j 2).val = win0_1.index t (2 : Fin 3) * 2048 + 1 * (j 2).val; omega
  have h1 : ((((cfg0.win 1).blk t).view.emb j) 1).val = (j 1).val := by
    show win0_1.index t (1 : Fin 3) * 32 + 1 * (j 1).val = (j 1).val; omega
  rw [hw, h1]

/-- An index of the result is in point `t`'s block iff each coordinate is in the block's range on its axis. -/
theorem mem_blk (t : Fin cfg0.N) (i : S2048x32x2048.Idx) :
    i ∈ ((cfg0.win 1).blk t).view.set ↔ ∀ a : Fin 3, win0_1.index t a * S32x32x2048.size a ≤ (i a).val ∧ (i a).val < win0_1.index t a * S32x32x2048.size a + S32x32x2048.size a := by
  show i ∈ ((View.whole main_v0).slice (win0_1.rect t)).set ↔ _
  rw [View.set_slice_whole, Rect.mem_set_unit]
  exact Iff.rfl

/-- Every index of the result is in the block of the point its row belongs to: row `b` is in block `b / 32`. -/
theorem covered (i : S2048x32x2048.Idx) :
    ∃ t : Fin cfg0.N, (cfg0.win 1).flush t = true ∧ i ∈ ((cfg0.win 1).blk t).view.set := by
  have hi0 : (i 0).val < 2048 := (i 0).isLt
  have hi1 : (i 1).val < 32 := (i 1).isLt
  have hi2 : (i 2).val < 2048 := (i 2).isLt
  have hN : cfg0.N = 64 := N_0
  let t : Fin cfg0.N := ⟨(i 0).val / 32, by rw [hN]; omega⟩
  obtain ⟨-, -, e2, e3, e4⟩ := idx_facts t
  have ht : t.val = (i 0).val / 32 := rfl
  refine ⟨t, flush0_1 t, ?_⟩
  rw [mem_blk]
  intro a
  match a with
  | ⟨0, _⟩ => show win0_1.index t (0 : Fin 3) * 32 ≤ (i 0).val ∧ (i 0).val < win0_1.index t (0 : Fin 3) * 32 + 32; omega
  | ⟨1, _⟩ => show win0_1.index t (1 : Fin 3) * 32 ≤ (i 1).val ∧ (i 1).val < win0_1.index t (1 : Fin 3) * 32 + 32; omega
  | ⟨2, _⟩ => show win0_1.index t (2 : Fin 3) * 2048 ≤ (i 2).val ∧ (i 2).val < win0_1.index t (2 : Fin 3) * 2048 + 2048; omega

/-- THE RESULT ARRAY after the run: the bit planes of the argument array. -/
theorem final (c : Dev nD) :
    (dats m 0 c).arrAt 1 cfg0.N = Cert.BitPlanes.planes (F := F) (m ((c : Thread nD τ).loc main_arg0)) :=
  (dats m 0 c).arrAt_eq_of_cover 1 (Cert.BitPlanes.planes (F := F) (V m c main_arg0)) (fun t _ => flushed_eq m c t) covered

/-- The kernel's run, read: the result array ends at the bit planes of the argument, the argument unchanged. -/
theorem run : θ_run defs (onTc (τ := τ) (main (F := F))) ⟨m, fun _ => 0, ρ⟩ fun r => ∀ c : Dev nD,
      r.2.mem ((c : Thread nD τ).loc main_v0) = Cert.BitPlanes.planes (F := F) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.KernelIdeal.Planes

end
-- ==== Proof.RefPlanes.lean ====
/-
  The reference computes the bit planes: `(x[:, None, :] >> arange(32)[None, :, None]) & 1`, converted to float, is at
  `(b, r, c)` the word `x (b, c)` shifted arithmetically by `r`, masked by `1`, converted — `BitPlanes.planes x`. The two
  chains of broadcasts only select coordinates: the word's index is `(b, c)`, the shift amount's is `r`.
-/
import proofs.«403591_j26448408609453_3_alg».proof.Proof.Gen.ReferenceIdeal.Read
import proofs.«403591_j26448408609453_3_alg».proof.Proof.BitPlanes

noncomputable section

namespace Cert.ReferenceIdeal.Planes

open Cert.ReferenceIdeal Cert.ReferenceIdeal.Read Idealize.ShloMosaic Idealize.ShloMosaic.ValueIdx

variable {F : FTy → Type} [FloatOps F]

/-- Through the two broadcasts of the argument, result index `(b, r, c)` reads the word at `(b, c)`. -/
theorem word_idx (i : S2048x32x2048.Idx) : idx_main_v1 (idx_main_v3 i) = ix2 (i 0) (i 2) :=
  funext fun a => Fin.ext (by match a with | ⟨0, _⟩ => rfl | ⟨1, _⟩ => rfl)

/-- The reference's last stage is the bit planes of its argument. -/
theorem ref_planes (x0 : (⟨S2048x2048, .i32⟩ : BufTy).Contents (Elt F)) :
    val_main_v8 (F := F) x0 = Cert.BitPlanes.planes x0 := by
  funext i
  rw [val_main_v8_apply, val_main_v7_apply, val_main_v5_apply, val_main_v6_apply, val_main_c_apply, val_main_v3_apply,
    val_main_v1_apply, val_main_v4_apply, val_main_v2_apply, val_main_v0_apply, word_idx]
  rfl

end Cert.ReferenceIdeal.Planes

end
-- ==== Proof.lean ====
/-
  A kernel that unpacks a 2048 × 2048 matrix of 32-bit words into 32 bit planes, against `(x[:, None, :] >> arange(32)) & 1`.

  Both programs produce, at `(b, r, c)`, bit `r` of the word `x (b, c)` as the float `0` or `1`: the word shifted right
  arithmetically by `r`, masked by `1`, converted (`BitPlanes.planes`). The reference does it in one shift by `r`
  (`RefPlanes`). The kernel works on blocks of 32 rows and, inside a block, in two halves of 16 planes: half `k` shifts every
  word by `16 k` first and plane `q` of the half by `q` more. Two arithmetic shifts by `a` and `q` are one by `a + q` while
  `a + q < 32` (`BitPlanes.shrsi_shrsi`), so half `k`'s plane `q` is plane `16 k + q` (`KernelBlock`); the two halves tile a block's
  planes and the 64 blocks tile the rows (`KernelArray`). No float arithmetic enters: the equality is one of integers, converted
  by the same conversion on both sides, and holds for every input.

  The three frames: the kernel's two are its generated frame certificates; the reference, a host program, runs to its composed
  term with its argument unchanged. The idealization rewrote nothing, so `preserves` asks nothing.
-/
import proofs.«403591_j26448408609453_3_alg».proof.Defs
import proofs.«403591_j26448408609453_3_alg».proof.Proof.Gen.Kernel
import proofs.«403591_j26448408609453_3_alg».proof.Proof.Gen.Kernel.Skeleton
import proofs.«403591_j26448408609453_3_alg».proof.Proof.Gen.Kernel.Loops
import proofs.«403591_j26448408609453_3_alg».proof.Proof.Gen.Kernel.Launch
import proofs.«403591_j26448408609453_3_alg».proof.Proof.Gen.Kernel.Points
import proofs.«403591_j26448408609453_3_alg».proof.Proof.Gen.Kernel.Frame
import proofs.«403591_j26448408609453_3_alg».proof.Proof.Gen.KernelIdeal
import proofs.«403591_j26448408609453_3_alg».proof.Proof.Gen.KernelIdeal.Skeleton
import proofs.«403591_j26448408609453_3_alg».proof.Proof.Gen.KernelIdeal.Loops
import proofs.«403591_j26448408609453_3_alg».proof.Proof.Gen.KernelIdeal.Launch
import proofs.«403591_j26448408609453_3_alg».proof.Proof.Gen.KernelIdeal.Points
import proofs.«403591_j26448408609453_3_alg».proof.Proof.Gen.KernelIdeal.Frame
import proofs.«403591_j26448408609453_3_alg».proof.Proof.Gen.ReferenceIdeal
import proofs.«403591_j26448408609453_3_alg».proof.Proof.Gen.Pre_any_inputs
import proofs.«403591_j26448408609453_3_alg».proof.Proof.Gen.KernelIdeal.Value
import proofs.«403591_j26448408609453_3_alg».proof.Proof.Gen.ReferenceIdeal.Run
import proofs.«403591_j26448408609453_3_alg».proof.Proof.Gen.ReferenceIdeal.Read
import proofs.«403591_j26448408609453_3_alg».proof.Proof.KernelArray
import proofs.«403591_j26448408609453_3_alg».proof.Proof.RefPlanes
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the bit planes of the argument: the kernel's result array block by block (`Planes.run`), the
    reference's as its last stage (`ref_planes`), of arguments that agree. -/
theorem algebraic : Cert.algebraic_KernelIdeal_ReferenceIdeal := by
  intro m ρ m' ρ' _ hagree
  refine ⟨fun c => Cert.BitPlanes.planes (F := Ideal) (m ((c.tc : Thread Cert.KernelIdeal.nD Cert.KernelIdeal.τ).loc Cert.KernelIdeal.main_arg0)),
    Cert.KernelIdeal.Planes.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.Planes.ref_planes, hagree c]

theorem claim : Cert.Claim := ⟨Cert.Kernel.Gen.facts, Cert.KernelIdeal.Gen.facts, Cert.ReferenceIdeal.Gen.facts, Cert.Pre_any_inputs.Gen.facts,
  frame_k, frame_ki, frame_ri, trivial, algebraic⟩

end Cert.Proof

end
